-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x32 : Shape := ⟨2, ![8192, 32]⟩
abbrev S3x1 : Shape := ⟨2, ![3, 1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg4 : FVec F S3x1 .f32) (main_arg5 : FVec F S3x1 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S3x1 .f32 := Host.absf main_arg4
  let main_cst_6 : FVec F S_ .f32 := constant S_ .f32 0x7F800000#32
  let main_v20 : FVec F S3x1 .f32 := broadcastInDim S3x1 ![] bcast_S_S3x1 main_cst_6
  let main_v21 : IVec S3x1 1 := cmpf .olt main_v19 main_v20
  let main_c_7 : IVec S_ 1 := constantI S_ 1 1#1
  let main_v22 : IVec S_ 1 := (fun x v => Host.reduce IntOp.andi x v reducesTo_S3x1_S_d0_1 h_S_) main_v21 main_c_7
  let main_v23 : IVec S_ 1 := andi main_v18 main_v22
  let main_v24 : FVec F S3x1 .f32 := Host.absf main_arg5
  let main_cst_8 : FVec F S_ .f32 := constant S_ .f32 0x7F800000#32
  let main_v25 : FVec F S3x1 .f32 := broadcastInDim S3x1 ![] bcast_S_S3x1 main_cst_8
  let main_v26 : IVec S3x1 1 := cmpf .olt main_v24 main_v25
  let main_c_9 : IVec S_ 1 := constantI S_ 1 1#1
  let main_v27 : IVec S_ 1 := (fun x v => Host.reduce IntOp.andi x v reducesTo_S3x1_S_d0_1 h_S_) main_v26 main_c_9
  let main_v28 : IVec S_ 1 := andi main_v23 main_v27
  main_v28

def fn {F : FTy → Type} [FloatOps F] (main_arg0 : FVec F S8192x8192 .f32) (main_arg1 : FVec F S8192x8192 .f32) (main_arg2 : FVec F S8192x32 .f32) (main_arg3 : FVec F S8192x32 .f32) (main_arg4 : FVec F S3x1 .f32) (main_arg5 : FVec F S3x1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Kernel.lean ====
abbrev S8192x8192 : Shape := ⟨2, ![8192, 8192]⟩
abbrev S8192x32 : Shape := ⟨2, ![8192, 32]⟩
abbrev S3x1 : Shape := ⟨2, ![3, 1]⟩
abbrev S8192x64 : Shape := ⟨2, ![8192, 64]⟩
abbrev S256x8192 : Shape := ⟨2, ![256, 8192]⟩
abbrev S256x64 : Shape := ⟨2, ![256, 64]⟩
abbrev S1x1 : Shape := ⟨2, ![1, 1]⟩
abbrev S1 : Shape := ⟨1, ![1]⟩
abbrev S512x8192 : Shape := ⟨2, ![512, 8192]⟩
abbrev S512x64 : Shape := ⟨2, ![512, 64]⟩

abbrev nBuf : Space → Nat
  | .hbm => 53
  | .vmem => 19
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S8192x32, .f32⟩
  | .hbm, ⟨4, _⟩ => ⟨S3x1, .f32⟩
  | .hbm, ⟨5, _⟩ => ⟨S3x1, .f32⟩
  | .hbm, ⟨6, _⟩ => ⟨S8192x64, .f32⟩
  | .hbm, ⟨7, _⟩ => ⟨S8192x64, .bf16⟩
  | .hbm, ⟨8, _⟩ => ⟨S8192x64, .f32⟩
  | .hbm, ⟨9, _⟩ => ⟨S8192x8192, .bf16⟩
  | .hbm, ⟨10, _⟩ => ⟨S8192x32, .f32⟩
  | .hbm, ⟨11, _⟩ => ⟨S8192x32, .f32⟩
  | .hbm, ⟨12, _⟩ => ⟨S8192x64, .f32⟩
  | .hbm, ⟨13, _⟩ => ⟨S8192x64, .bf16⟩
  | .hbm, ⟨14, _⟩ => ⟨S8192x64, .f32⟩
  | .hbm, ⟨15, _⟩ => ⟨S8192x32, .f32⟩
  | .hbm, ⟨16, _⟩ => ⟨S8192x32, .f32⟩
  | .hbm, ⟨17, _⟩ => ⟨S1x1, .f32⟩
  | .hbm, ⟨18, _⟩ => ⟨S1, .f32⟩
  | .hbm, ⟨19, _⟩ => ⟨S1x1, .f32⟩
  | .hbm, ⟨20, _⟩ => ⟨S8192x32, .f32⟩
  | .hbm, ⟨21, _⟩ => ⟨S8192x32, .f32⟩
  | .hbm, ⟨22, _⟩ => ⟨S1x1, .f32⟩
  | .hbm, ⟨23, _⟩ => ⟨S1, .f32⟩
  | .hbm, ⟨24, _⟩ => ⟨S1x1, .f32⟩
  | .hbm, ⟨25, _⟩ => ⟨S8192x32, .f32⟩
  | .hbm, ⟨26, _⟩ => ⟨S8192x32, .f32⟩
  | .hbm, ⟨27, _⟩ => ⟨S8192x64, .f32⟩
  | .hbm, ⟨28, _⟩ => ⟨S8192x64, .bf16⟩
  | .hbm, ⟨29, _⟩ => ⟨S1x1, .f32⟩
  | .hbm, ⟨30, _⟩ => ⟨S1, .f32⟩
  | .hbm, ⟨31, _⟩ => ⟨S1x1, .f32⟩
  | .hbm, ⟨32, _⟩ => ⟨S8192x32, .f32⟩
  | .hbm, ⟨33, _⟩ => ⟨S8192x32, .f32⟩
  | .hbm, ⟨34, _⟩ => ⟨S1x1, .f32⟩
  | .hbm, ⟨35, _⟩ => ⟨S1, .f32⟩
  | .hbm, ⟨36, _⟩ => ⟨S1x1, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S1x1, .f32⟩
  | .hbm, ⟨41, _⟩ => ⟨S1, .f32⟩
  | .hbm, ⟨42, _⟩ => ⟨S1x1, .f32⟩
  | .hbm, ⟨43, _⟩ => ⟨S8192x32, .f32⟩
  | .hbm, ⟨44, _⟩ => ⟨S8192x32, .f32⟩
  | .hbm, ⟨45, _⟩ => ⟨S1x1, .f32⟩
  | .hbm, ⟨46, _⟩ => ⟨S1, .f32⟩
  | .hbm, ⟨47, _⟩ => ⟨S1x1, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x64, .f32⟩
  | .hbm, ⟨52, _⟩ => ⟨S8192x64, .f32⟩
  | .local _ .vmem, ⟨0, _⟩ => ⟨S256x8192, .f32⟩
  | .local _ .vmem, ⟨1, _⟩ => ⟨S256x8192, .f32⟩
  | .local _ .vmem, ⟨2, _⟩ => ⟨S8192x64, .bf16⟩
  | .local _ .vmem, ⟨3, _⟩ => ⟨S256x64, .f32⟩
  | .local _ .vmem, ⟨4, _⟩ => ⟨S256x64, .f32⟩
  | .local _ .vmem, ⟨5, _⟩ => ⟨S256x8192, .bf16⟩
  | .local _ .vmem, ⟨6, _⟩ => ⟨S256x8192, .bf16⟩
  | .local _ .vmem, ⟨7, _⟩ => ⟨S256x8192, .f32⟩
  | .local _ .vmem, ⟨8, _⟩ => ⟨S256x8192, .f32⟩
  | .local _ .vmem, ⟨9, _⟩ => ⟨S8192x64, .bf16⟩
  | .local _ .vmem, ⟨10, _⟩ => ⟨S256x64, .f32⟩
  | .local _ .vmem, ⟨11, _⟩ => ⟨S256x64, .f32⟩
  | .local _ .vmem, ⟨12, _⟩ => ⟨S512x8192, .bf16⟩
  | .local _ .vmem, ⟨13, _⟩ => ⟨S512x8192, .bf16⟩
  | .local _ .vmem, ⟨14, _⟩ => ⟨S8192x64, .bf16⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S8192x32_S8192x32_S8192x64_d1 : Shape.Concatenates [S8192x32, S8192x32] S8192x64 1
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  packedbf16_S256x8192_S256x8192_0_0 : (Rect.unit (s := S256x8192) ![0, 0] S256x8192.size inb_S256x8192_S256x8192_0_0).PackedRows (EltTy.packing .bf16)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x64_S256x64_0_0 : ∀ a, (![0, 0] : Fin 2 → Nat) a + S256x64.size a ≤ S256x64.size a
  h_S256x64 : 0 < S256x64.numel
  slices_S8192x64_S8192x32_0_0 : S8192x64.Slices ![0, 0] S8192x32
  slices_S8192x64_S8192x32_0_32 : S8192x64.Slices ![0, 32] S8192x32
  slices_S3x1_S1x1_2_0 : S3x1.Slices ![2, 0] S1x1
  shapeCasts_S1x1_S1 : S1x1.ShapeCasts S1
  bcast_S1_S1x1_1 : S1.BroadcastsInDim S1x1 (![1] : Fin 1 → Fin S1x1.rank)
  bcast_S1x1_S8192x32_0_1 : S1x1.BroadcastsInDim S8192x32 (![0, 1] : Fin 2 → Fin S8192x32.rank)
  slices_S3x1_S1x1_1_0 : S3x1.Slices ![1, 0] S1x1
  slices_S3x1_S1x1_0_0 : S3x1.Slices ![0, 0] S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  dot_S256x8192_S8192x64_S256x64_1_0_0_1_n_n_wf : DotDims.WF S256x8192 S8192x64 S256x64 [1] [0] [0] [1] [] []
  dot_S512x8192_S8192x64_S512x64_1_0_0_1_n_n_wf : DotDims.WF S512x8192 S8192x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .bf16 = 32 ∨ (Rect.block (s := S8192x8192) S256x8192.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S8192x64.size a
  hwx1_2 : ∀ i : grid1.Coords, EltTy.bits .f32 = 32 ∨ (Rect.block (s := S8192x64) S256x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .bf16 = 32 ∨ (Rect.block (s := S8192x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S8192x64.size a
  hwx2_2 : ∀ i : grid2.Coords, EltTy.bits .f32 = 32 ∨ (Rect.block (s := S8192x64) S512x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S8192x64.size a
  hwx2_3 : ∀ i : grid2.Coords, EltTy.bits .f32 = 32 ∨ (Rect.block (s := S8192x64) S512x64.size (cc2_transform_3 i) (hinb2_3 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S256x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2_1) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x32 : Shape := ⟨2, ![8192, 32]⟩
abbrev S3x1 : Shape := ⟨2, ![3, 1]⟩
abbrev S1x1 : Shape := ⟨2, ![1, 1]⟩
abbrev S1 : Shape := ⟨1, ![1]⟩
abbrev S_ : Shape := ⟨0, ![]⟩
abbrev S8192x64 : Shape := ⟨2, ![8192, 64]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S8192x32, .f32⟩
  | .hbm, ⟨4, _⟩ => ⟨S3x1, .f32⟩
  | .hbm, ⟨5, _⟩ => ⟨S3x1, .f32⟩
  | .hbm, ⟨6, _⟩ => ⟨S1x1, .f32⟩
  | .hbm, ⟨7, _⟩ => ⟨S1, .f32⟩
  | .hbm, ⟨8, _⟩ => ⟨S1x1, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192x32, .f32⟩
  | .hbm, ⟨13, _⟩ => ⟨S8192x32, .f32⟩
  | .hbm, ⟨14, _⟩ => ⟨S1x1, .f32⟩
  | .hbm, ⟨15, _⟩ => ⟨S1, .f32⟩
  | .hbm, ⟨16, _⟩ => ⟨S1x1, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x1, .f32⟩
  | .hbm, ⟨22, _⟩ => ⟨S1, .f32⟩
  | .hbm, ⟨23, _⟩ => ⟨S1x1, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S1x1, .f32⟩
  | .hbm, ⟨30, _⟩ => ⟨S1, .f32⟩
  | .hbm, ⟨31, _⟩ => ⟨S1x1, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S1x1, .f32⟩
  | .hbm, ⟨37, _⟩ => ⟨S1, .f32⟩
  | .hbm, ⟨38, _⟩ => ⟨S1x1, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S1x1, .f32⟩
  | .hbm, ⟨45, _⟩ => ⟨S1, .f32⟩
  | .hbm, ⟨46, _⟩ => ⟨S1x1, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]

class Facts₀ : Prop where
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S8192x32_0_1 : S1x1.BroadcastsInDim S8192x32 (![0, 1] : Fin 2 → Fin S8192x32.rank)
  bcast_S_S8192x32 : S_.BroadcastsInDim S8192x32 (![] : Fin 0 → Fin S8192x32.rank)
  slices_S3x1_S1x1_1_0 : S3x1.Slices ![1, 0] S1x1
  slices_S3x1_S1x1_2_0 : S3x1.Slices ![2, 0] S1x1
  concatenates_S8192x32_S8192x32_S8192x64_d1 : Shape.Concatenates [S8192x32, S8192x32] S8192x64 1
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.Spec.lean ====
/-
  The mathematics of the two programs, free of either program's text.

  Arrays are functions from rank-2 indices to the extended reals. `mm A X` is the matrix product over the shared
  axis of length 8192, `cat X Y` lays two 32-column arrays side by side, `lo` / `hi` take the left / right 32
  columns of a 64-column array back out, `scal w h X` multiplies every entry of `X` by the weight `w[h, 0]`.

  The kernel computes three products, each against a 64-column right-hand side that is two 32-column operands
  side by side, and folds the last product's scalings into its right-hand side:
      out = [w0 xp + w1 y1 | u0 z1 + u2 t2] + Ap · [w2 y1 | u1 z1],
      y1 = Ap xp, t1 = Ap xn, z1 = An xn, t2 = An t1.
  The reference computes the six 32-column products one at a time and scales each product afterwards:
      out = [ (w0 xp + w1 (Ap xp)) + w2 (Ap (Ap xp)) | ((0 + u0 (An xn)) + u1 (Ap (An xn))) + u2 (An (Ap xn)) ].

  Three facts join them. A product against two operands side by side is the two products side by side
  (`mm_cat`: each output column sees only its own column of the right-hand side; true on all extended reals).
  A scalar moves out of a product, `Ap · (w • Y) = w • (Ap · Y)` (`mm_scal`): this is distributivity of
  multiplication over a sum, which fails at the infinities, and is proved for REAL entries by computing in ℝ.
  The negative half adds its three terms in another order (commutativity and associativity of + on the
  extended reals, and 0 + a = a).
-/
import Idealize.ShloMosaic.Lib.ValueIdx
import Mathlib.Algebra.BigOperators.Ring.Finset

noncomputable section

namespace Cert.Hops

open Idealize.ShloMosaic Idealize.ShloMosaic.ValueIdx

/-- An `r × c` array of extended reals. -/
abbrev Arr (r c : Nat) : Type := (⟨2, ![r, c]⟩ : Shape).Idx → EReal

/-- Every entry is a real number. -/
def IsReal {r c : Nat} (X : Arr r c) : Prop := ∀ i, ∃ a : ℝ, X i = (a : EReal)

/-- The product's entry at row `p`, column `q`. -/
def mmAt {c : Nat} (A : Arr 8192 8192) (X : Arr 8192 c) (p : Fin 8192) (q : Fin c) : EReal :=
  ∑ k : Fin 8192, A (ix2 p k) * X (ix2 k q)

/-- The matrix product `A · X` over the shared axis of length 8192. -/
def mm {c : Nat} (A : Arr 8192 8192) (X : Arr 8192 c) : Arr 8192 c :=
  fun i => mmAt A X ⟨(i 0).val, idx2_lt0 i⟩ ⟨(i 1).val, idx2_lt1 i⟩

theorem mm_ix2 {c : Nat} (A : Arr 8192 8192) (X : Arr 8192 c) (p : Fin 8192) (q : Fin c) :
    mm A X (ix2 p q) = mmAt A X p q := rfl

/-- Two 32-column arrays side by side. -/
def cat (X Y : Arr 8192 32) : Arr 8192 64 := fun i =>
  if h : (i 1).val < 32 then X (ix2 ⟨(i 0).val, idx2_lt0 i⟩ ⟨(i 1).val, h⟩)
  else Y (ix2 ⟨(i 0).val, idx2_lt0 i⟩ ⟨(i 1).val - 32, by have := idx2_lt1 i; omega⟩)

theorem cat_left (X Y : Arr 8192 32) (p : Fin 8192) (q : Fin 64) (h : q.val < 32) :
    cat X Y (ix2 p q) = X (ix2 p ⟨q.val, h⟩) := by
  show (if h : q.val < 32 then _ else _) = _
  rw [dif_pos h]

theorem cat_right (X Y : Arr 8192 32) (p : Fin 8192) (q : Fin 64) (h : ¬ q.val < 32) :
    cat X Y (ix2 p q) = Y (ix2 p ⟨q.val - 32, by have := q.isLt; omega⟩) := by
  show (if h : q.val < 32 then _ else _) = _
  rw [dif_neg h]

/-- The left 32 columns of a 64-column array. -/
def lo (Z : Arr 8192 64) : Arr 8192 32 := fun i =>
  Z (ix2 ⟨(i 0).val, idx2_lt0 i⟩ ⟨(i 1).val, by have := idx2_lt1 i; omega⟩)

/-- The right 32 columns of a 64-column array. -/
def hi (Z : Arr 8192 64) : Arr 8192 32 := fun i =>
  Z (ix2 ⟨(i 0).val, idx2_lt0 i⟩ ⟨(i 1).val + 32, by have := idx2_lt1 i; omega⟩)

/-- Every entry multiplied by the weight `w[h, 0]`. -/
def scal {r c : Nat} (w : Arr 3 1) (h : Fin 3) (X : Arr r c) : Arr r c := fun i => w (ix2 h 0) * X i

/-- Entrywise sum. -/
def add {r c : Nat} (X Y : Arr r c) : Arr r c := fun i => X i + Y i

/-- The all-zero array. -/
def zero {r c : Nat} : Arr r c := fun _ => 0

/-! ## Products against operands side by side -/

theorem lo_cat (X Y : Arr 8192 32) : lo (cat X Y) = X := by
  funext i
  obtain ⟨p, q, rfl⟩ : ∃ (p : Fin 8192) (q : Fin 32), i = ix2 p q := ⟨i 0, i 1, eq_ix2 i⟩
  show cat X Y (ix2 p ⟨q.val, _⟩) = _
  rw [cat_left X Y p ⟨q.val, _⟩ q.isLt]

theorem hi_cat (X Y : Arr 8192 32) : hi (cat X Y) = Y := by
  funext i
  obtain ⟨p, q, rfl⟩ : ∃ (p : Fin 8192) (q : Fin 32), i = ix2 p q := ⟨i 0, i 1, eq_ix2 i⟩
  show cat X Y (ix2 p ⟨q.val + 32, _⟩) = _
  rw [cat_right X Y p ⟨q.val + 32, _⟩ (by show ¬ q.val + 32 < 32; omega)]
  exact congrArg Y (congrArg (ix2 p) (Fin.ext (by show q.val + 32 - 32 = q.val; omega)))

/-- Each output column of a product sees only its own column of the right-hand side. -/
theorem mm_cat (A : Arr 8192 8192) (X Y : Arr 8192 32) : mm A (cat X Y) = cat (mm A X) (mm A Y) := by
  funext i
  obtain ⟨p, q, rfl⟩ : ∃ (p : Fin 8192) (q : Fin 64), i = ix2 p q := ⟨i 0, i 1, eq_ix2 i⟩
  by_cases h : q.val < 32
  · rw [cat_left _ _ p q h, mm_ix2, mm_ix2]
    exact Finset.sum_congr rfl fun k _ => by rw [cat_left X Y k q h]
  · rw [cat_right _ _ p q h, mm_ix2, mm_ix2]
    exact Finset.sum_congr rfl fun k _ => by rw [cat_right X Y k q h]

theorem add_cat (X Y X' Y' : Arr 8192 32) : add (cat X Y) (cat X' Y') = cat (add X X') (add Y Y') := by
  funext i
  obtain ⟨p, q, rfl⟩ : ∃ (p : Fin 8192) (q : Fin 64), i = ix2 p q := ⟨i 0, i 1, eq_ix2 i⟩
  by_cases h : q.val < 32
  · show cat X Y (ix2 p q) + cat X' Y' (ix2 p q) = _
    rw [cat_left _ _ p q h, cat_left _ _ p q h, cat_left _ _ p q h]; rfl
  · show cat X Y (ix2 p q) + cat X' Y' (ix2 p q) = _
    rw [cat_right _ _ p q h, cat_right _ _ p q h, cat_right _ _ p q h]; rfl

/-! ## Real entries: a scalar moves out of a product -/

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A product of real arrays is a real array. -/
theorem isReal_mm {c : Nat} {A : Arr 8192 8192} {X : Arr 8192 c} (hA : IsReal A) (hX : IsReal X) : IsReal (mm A X) := by
  intro i
  choose a ha using hA
  choose x hx using hX
  refine ⟨∑ k : Fin 8192, a (ix2 ⟨(i 0).val, idx2_lt0 i⟩ k) * x (ix2 k ⟨(i 1).val, idx2_lt1 i⟩), ?_⟩
  rw [coe_sum]
  show (∑ k : Fin 8192, A (ix2 _ k) * X (ix2 k _)) = _
  exact Finset.sum_congr rfl fun k _ => by rw [ha, hx, EReal.coe_mul]

/-- THE LAW: with real entries and a real weight, scaling the right-hand side scales the product. -/
theorem mm_scal {c : Nat} {A : Arr 8192 8192} {Y : Arr 8192 c} (w : Arr 3 1) (h : Fin 3)
    (hA : IsReal A) (hw : IsReal w) (hY : IsReal Y) : mm A (scal w h Y) = scal w h (mm A Y) := by
  funext i
  choose a ha using hA
  choose y hy using hY
  obtain ⟨ω, hω⟩ := hw (ix2 h 0)
  show (∑ k : Fin 8192, A (ix2 _ k) * (w (ix2 h 0) * Y (ix2 k _))) = w (ix2 h 0) * ∑ k : Fin 8192, A (ix2 _ k) * Y (ix2 k _)
  rw [hω]
  simp only [ha, hy, ← EReal.coe_mul, ← coe_sum]
  rw [Finset.mul_sum]
  exact congrArg _ (Finset.sum_congr rfl fun k _ => by ring)

/-! ## The two programs' results -/

/-- What the kernel's three passes leave in the result array. -/
def kernelOut (Ap An : Arr 8192 8192) (xp xn : Arr 8192 32) (w u : Arr 3 1) : Arr 8192 64 :=
  add (cat (add (scal w 0 xp) (scal w 1 (lo (mm Ap (cat xp xn)))))
           (add (scal u 0 (lo (mm An (cat xn (hi (mm Ap (cat xp xn)))))))
                (scal u 2 (hi (mm An (cat xn (hi (mm Ap (cat xp xn)))))))))
      (mm Ap (cat (scal w 2 (lo (mm Ap (cat xp xn))))
                  (scal u 1 (lo (mm An (cat xn (hi (mm Ap (cat xp xn)))))))))

/-- What the reference's six products and their weighted sums give. -/
def refOut (Ap An : Arr 8192 8192) (xp xn : Arr 8192 32) (w u : Arr 3 1) : Arr 8192 64 :=
  cat (add (add (scal w 0 xp) (scal w 1 (mm Ap xp))) (scal w 2 (mm Ap (mm Ap xp))))
      (add (add (add zero (scal u 0 (mm An xn))) (scal u 1 (mm Ap (mm An xn)))) (scal u 2 (mm An (mm Ap xn))))

/-- On real inputs the kernel's regrouping into three double-width passes computes the reference's result. -/
theorem kernelOut_eq_refOut {Ap An : Arr 8192 8192} {xp xn : Arr 8192 32} {w u : Arr 3 1}
    (hAp : IsReal Ap) (hAn : IsReal An) (hxp : IsReal xp) (hxn : IsReal xn) (hw : IsReal w) (hu : IsReal u) :
    kernelOut Ap An xp xn w u = refOut Ap An xp xn w u := by
  unfold kernelOut refOut
  rw [mm_cat Ap xp xn, lo_cat, hi_cat, mm_cat An xn (mm Ap xn), lo_cat, hi_cat, mm_cat, add_cat,
    mm_scal w 2 hAp hw (isReal_mm hAp hxp), mm_scal u 1 hAp hu (isReal_mm hAn hxn)]
  congr 1
  funext i
  show (u (ix2 0 0) * mm An xn i + u (ix2 2 0) * mm An (mm Ap xn) i) + u (ix2 1 0) * mm Ap (mm An xn) i
    = ((0 + u (ix2 0 0) * mm An xn i) + u (ix2 1 0) * mm Ap (mm An xn) i) + u (ix2 2 0) * mm An (mm Ap xn) i
  rw [zero_add, add_right_comm]

end Cert.Hops

end
-- ==== Proof.Finite.lean ====
/-
  The precondition, decoded: every input entry is a real number.

  The printed predicate is, per input array, `all (|x| < +∞)`, the six answers joined by `and`. On the extended
  reals `|x| = max x (−x)`, which is below +∞ exactly when `x` is neither infinity, that is, a real number.
-/
import proofs.«125253_g1580547969346_cont_sun_m_652_15_alg».proof.Pre_finite_inputs
import proofs.«125253_g1580547969346_cont_sun_m_652_15_alg».proof.Proof.Spec
import Idealize.ShloMosaic.Lib.ReduceAll
import Idealize.ShloMosaic.Lib.Affine
import Idealize.ShloMosaic.Lib.Pipeline.Value
import Idealize.ShloMosaic.PureOps.Ideal.Laws

noncomputable section

namespace Cert.Hops

open Idealize.ShloMosaic Idealize.ShloMosaic.ValueIdx Cert.Pre_finite_inputs

/-- The scalar shape has one index. -/
instance scalarIdxSubsingleton : Subsingleton (⟨0, ![]⟩ : Shape).Idx := ⟨fun a b => funext fun d => d.elim0⟩

/-- An extended real whose absolute value is below +∞ is a real number. -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

/-- `all (|X| < +∞)` answering true makes every entry of `X` real. -/
theorem isReal_of_all {r c : Nat} (X : Arr r c) (hb : (⟨0, ![]⟩ : Shape).BroadcastsInDim ⟨2, ![r, c]⟩ ![])
    (hr : (⟨2, ![r, c]⟩ : Shape).ReducesTo [0, 1] ⟨0, ![]⟩) (hu : 0 < (⟨0, ![]⟩ : Shape).numel)
    (e : Host.reduce IntOp.andi
          (cmpf (F := Ideal) (s := ⟨2, ![r, c]⟩) (φ := .f32) .olt (Host.absf X)
            (broadcastInDim ⟨2, ![r, c]⟩ ![] hb (constant (F := Ideal) ⟨0, ![]⟩ .f32 0x7F800000#32)))
          (constantI ⟨0, ![]⟩ 1 1#1) hr hu ix0 = 1#1) : IsReal X := by
  intro i
  have hi := Host.reduce_andi_all _ _ hr hu ix0 e i
  apply real_of_abs_lt_inf
  have hbc : broadcastInDim (⟨2, ![r, c]⟩ : Shape) ![] hb (constant (F := Ideal) ⟨0, ![]⟩ .f32 0x7F800000#32) i
      = Ideal.ofBits .f32 0x7F800000#32 := broadcastInDim_apply _ hb _ i ix0 (fun a => a.elim0)
  rw [← hbc]
  exact hi

variable [Cert.Pre_finite_inputs.Facts]

/-- Under the precondition all six input arrays have real entries. -/
theorem reals_of_pre (Ap An : Arr 8192 8192) (xp xn : Arr 8192 32) (w u : Arr 3 1)
    (h : Cert.Pre_finite_inputs.fn (F := Ideal) Ap An xp xn w u = fun _ => 1#1) :
    IsReal Ap ∧ IsReal An ∧ IsReal xp ∧ IsReal xn ∧ IsReal w ∧ IsReal u := by
  have h0 := congrFun h ix0
  dsimp only [Cert.Pre_finite_inputs.fn, Cert.Pre_finite_inputs.fn_part1] at h0
  obtain ⟨h01234, h5⟩ := IntOp.andi_eq_one.mp h0
  obtain ⟨h0123, h4⟩ := IntOp.andi_eq_one.mp h01234
  obtain ⟨h012, h3⟩ := IntOp.andi_eq_one.mp h0123
  obtain ⟨h01, h2⟩ := IntOp.andi_eq_one.mp h012
  obtain ⟨h0', h1⟩ := IntOp.andi_eq_one.mp h01
  exact ⟨isReal_of_all Ap _ _ _ h0', isReal_of_all An _ _ _ h1, isReal_of_all xp _ _ _ h2,
    isReal_of_all xn _ _ _ h3, isReal_of_all w _ _ _ h4, isReal_of_all u _ _ _ h5⟩

end Cert.Hops

end
-- ==== Proof.Glue.lean ====
/-
  The host operations of both programs, read as the arrays of Spec.lean (at the extended reals).

  A weight is applied by slicing row `o` out of the 3 × 1 weight array, reshaping the 1 × 1 slice to one entry,
  broadcasting it back to 1 × 1 and then over all 8192 × 32 entries, and multiplying entrywise: every entry of the
  operand times `w[o, 0]` (`weight_mul`). A concatenation along the columns of two 32-column arrays is `cat`;
  the slices [0:32] and [32:64] along the columns are `lo` and `hi`; an entrywise sum is `add`; the broadcast of
  the zero constant is `zero`. Each lemma is stated for ANY evidence of the shape side conditions, so that it serves
  both programs' spellings.
-/
import proofs.«125253_g1580547969346_cont_sun_m_652_15_alg».proof.Proof.Spec
import Idealize.ShloMosaic.Lib.Pipeline.Value
import Idealize.ShloMosaic.Lib.ValueIdx
import Idealize.ShloMosaic.PureOps.Ideal.Laws

noncomputable section

namespace Cert.Hops

open Idealize.ShloMosaic Idealize.ShloMosaic.ValueIdx

abbrev T8192x64 : Shape := ⟨2, ![8192, 64]⟩
abbrev T8192x32 : Shape := ⟨2, ![8192, 32]⟩
abbrev T3x1 : Shape := ⟨2, ![3, 1]⟩
abbrev T1x1 : Shape := ⟨2, ![1, 1]⟩
abbrev T1 : Shape := ⟨1, ![1]⟩
abbrev T0 : Shape := ⟨0, ![]⟩

/-- Row `o` of the weights, broadcast over an array and multiplied in, scales every entry by `w[o, 0]`. -/
theorem weight_mul (o : Nat) (ho : o < 3) (w : Arr 3 1) (X : Arr 8192 32)
    (hs : T3x1.Slices ![o, 0] T1x1) (hc : T1x1.ShapeCasts T1) (hb1 : T1.BroadcastsInDim T1x1 ![1])
    (hb2 : T1x1.BroadcastsInDim T8192x32 ![0, 1]) :
    mulf (F := Ideal) (s := T8192x32) (φ := .f32)
        (broadcastInDim T8192x32 ![0, 1] hb2 (broadcastInDim T1x1 ![1] hb1 (shapeCast T1 (extractStridedSlice T1x1 ![o, 0] w hs) hc))) X
      = scal w ⟨o, ho⟩ X := by
  funext i
  show (broadcastInDim T8192x32 ![0, 1] hb2 (broadcastInDim T1x1 ![1] hb1 (shapeCast T1 (extractStridedSlice T1x1 ![o, 0] w hs) hc)) i : EReal) * X i
    = w (ix2 ⟨o, ho⟩ 0) * X i
  refine congrArg (· * X i) ?_
  rw [broadcastInDim_apply _ hb2 _ i (ix2 (0 : Fin 1) (0 : Fin 1)) (fun a => match a with
      | ⟨0, _⟩ => by show 0 = if (1 : Nat) = 1 then 0 else (i 0).val; rw [if_pos rfl]
      | ⟨1, _⟩ => by show 0 = if (1 : Nat) = 1 then 0 else (i 1).val; rw [if_pos rfl]),
    broadcastInDim_apply _ hb1 _ (ix2 (0 : Fin 1) (0 : Fin 1)) (ix1 (0 : Fin 1)) (fun a => match a with
      | ⟨0, _⟩ => by show 0 = if (1 : Nat) = 1 then 0 else _; rw [if_pos rfl]),
    shapeCast_apply _ hc (ix1 (0 : Fin 1)) (ix2 (0 : Fin 1) (0 : Fin 1))
      (by rewrite [Shape.rowMajor_val_two, Shape.rowMajor_val_one]; show 0 * 1 + 0 = 0; omega),
    extractStridedSlice_apply ![o, 0] w hs (ix2 (0 : Fin 1) (0 : Fin 1)) (ix2 ⟨o, ho⟩ 0) (fun a => match a with
      | ⟨0, _⟩ => by show o = o + 0; omega
      | ⟨1, _⟩ => by show 0 = 0 + 0; omega)]

/-- Two 32-column arrays concatenated along the columns. -/
theorem concat_cols (X Y : Arr 8192 32) (h : Shape.Concatenates [T8192x32, T8192x32] T8192x64 1) :
    concatenate T8192x64 1 [⟨T8192x32, X⟩, ⟨T8192x32, Y⟩] h = cat X Y := by
  funext j
  obtain ⟨p, q, rfl⟩ : ∃ (p : Fin 8192) (q : Fin 64), j = ix2 p q := ⟨j 0, j 1, eq_ix2 j⟩
  by_cases hq : q.val < 32
  · rw [cat_left X Y p q hq]
    exact concatenate_pair_apply_left 1 X Y h (ix2 p q) rfl (ix2 p ⟨q.val, hq⟩) (fun b => match b with
      | ⟨0, _⟩ => rfl
      | ⟨1, _⟩ => rfl)
  · rw [cat_right X Y p q hq]
    exact concatenate_pair_apply_right 1 X Y h (ix2 p q) rfl rfl (ix2 p ⟨q.val - 32, by have := q.isLt; omega⟩)
      (fun b => match b with
        | ⟨0, _⟩ => fun _ => rfl
        | ⟨1, _⟩ => fun hne => absurd rfl hne)
      (by show q.val - 32 + 32 = q.val; omega)

/-- The columns [0, 32) of a 64-column array. -/
theorem slice_lo (Z : Arr 8192 64) (h : T8192x64.Slices ![0, 0] T8192x32) :
    extractStridedSlice T8192x32 ![0, 0] Z h = lo Z := by
  funext j
  obtain ⟨p, q, rfl⟩ : ∃ (p : Fin 8192) (q : Fin 32), j = ix2 p q := ⟨j 0, j 1, eq_ix2 j⟩
  exact extractStridedSlice_apply ![0, 0] Z h (ix2 p q) (ix2 p ⟨q.val, by have := q.isLt; omega⟩) (fun a => match a with
    | ⟨0, _⟩ => by show p.val = 0 + p.val; omega
    | ⟨1, _⟩ => by show q.val = 0 + q.val; omega)

/-- The columns [32, 64) of a 64-column array. -/
theorem slice_hi (Z : Arr 8192 64) (h : T8192x64.Slices ![0, 32] T8192x32) :
    extractStridedSlice T8192x32 ![0, 32] Z h = hi Z := by
  funext j
  obtain ⟨p, q, rfl⟩ : ∃ (p : Fin 8192) (q : Fin 32), j = ix2 p q := ⟨j 0, j 1, eq_ix2 j⟩
  exact extractStridedSlice_apply ![0, 32] Z h (ix2 p q) (ix2 p ⟨q.val + 32, by have := q.isLt; omega⟩) (fun a => match a with
    | ⟨0, _⟩ => by show p.val = 0 + p.val; omega
    | ⟨1, _⟩ => by show q.val + 32 = 32 + q.val; omega)

/-- An entrywise sum. -/
theorem addf_eq_add {r c : Nat} (X Y : Arr r c) :
    addf (F := Ideal) (s := (⟨2, ![r, c]⟩ : Shape)) (φ := .f32) X Y = add X Y := rfl

/-- The zero constant broadcast over an array. -/
theorem broadcast_zero (h : T0.BroadcastsInDim T8192x32 ![]) :
    broadcastInDim T8192x32 ![] h (constant (F := Ideal) T0 .f32 0x00000000#32) = (zero : Arr 8192 32) := by
  funext i
  rw [broadcastInDim_apply _ h _ i ix0 (fun a => a.elim0)]
  exact Ideal.ofBits_zero_f32

/-! ## Whole host stages of the kernel program -/

/-- Narrowing to bf16 is the identity on the extended reals. -/
theorem narrow_id {s : Shape} (X : FVec Ideal s .f32) (h : FTy.bf16.bits < FTy.f32.bits) :
    (truncf (F := Ideal) .bf16 X h : s.Idx → EReal) = X := rfl

/-- Two 32-column arrays side by side, narrowed. -/
theorem stage_pair (X Y : Arr 8192 32) (hcat : Shape.Concatenates [T8192x32, T8192x32] T8192x64 1)
    (hbits : FTy.bf16.bits < FTy.f32.bits) :
    (truncf (F := Ideal) (s := T8192x64) (φ := .f32) .bf16
      (concatenate T8192x64 1 [⟨T8192x32, X⟩, ⟨T8192x32, Y⟩] hcat) hbits : Arr 8192 64) = cat X Y :=
  concat_cols X Y hcat

/-- The third pass's right-hand side as the host builds it: [w2 · y | u1 · left half of z], narrowed. -/
theorem stage_rhs3 (w u : Arr 3 1) (y : Arr 8192 32) (z : Arr 8192 64)
    (hs2 : T3x1.Slices ![2, 0] T1x1) (hs1 : T3x1.Slices ![1, 0] T1x1) (hc : T1x1.ShapeCasts T1)
    (hb1 : T1.BroadcastsInDim T1x1 ![1]) (hb2 : T1x1.BroadcastsInDim T8192x32 ![0, 1])
    (hl : T8192x64.Slices ![0, 0] T8192x32)
    (hcat : Shape.Concatenates [T8192x32, T8192x32] T8192x64 1) (hbits : FTy.bf16.bits < FTy.f32.bits) :
    (truncf (F := Ideal) (s := T8192x64) (φ := .f32) .bf16
      (concatenate T8192x64 1
        [⟨T8192x32, mulf (F := Ideal) (s := T8192x32) (φ := .f32)
            (broadcastInDim T8192x32 ![0, 1] hb2 (broadcastInDim T1x1 ![1] hb1 (shapeCast T1 (extractStridedSlice T1x1 ![2, 0] w hs2) hc))) y⟩,
         ⟨T8192x32, mulf (F := Ideal) (s := T8192x32) (φ := .f32)
            (broadcastInDim T8192x32 ![0, 1] hb2 (broadcastInDim T1x1 ![1] hb1 (shapeCast T1 (extractStridedSlice T1x1 ![1, 0] u hs1) hc)))
            (extractStridedSlice T8192x32 ![0, 0] z hl)⟩] hcat) hbits : Arr 8192 64)
      = cat (scal w 2 y) (scal u 1 (lo z)) := by
  rw [weight_mul 2 (by decide) w y, weight_mul 1 (by decide) u, slice_lo]
  exact concat_cols _ _ hcat

/-- The third pass's bias as the host builds it:
    [w0 · x + w1 · y | u0 · left half of z + u2 · right half of z]. -/
theorem stage_bias3 (w u : Arr 3 1) (x y : Arr 8192 32) (z : Arr 8192 64)
    (hs0 : T3x1.Slices ![0, 0] T1x1) (hs1 : T3x1.Slices ![1, 0] T1x1) (hs2 : T3x1.Slices ![2, 0] T1x1)
    (hc : T1x1.ShapeCasts T1) (hb1 : T1.BroadcastsInDim T1x1 ![1]) (hb2 : T1x1.BroadcastsInDim T8192x32 ![0, 1])
    (hl : T8192x64.Slices ![0, 0] T8192x32) (hh : T8192x64.Slices ![0, 32] T8192x32)
    (hcat : Shape.Concatenates [T8192x32, T8192x32] T8192x64 1) :
    (concatenate T8192x64 1
        [⟨T8192x32, addf (F := Ideal) (s := T8192x32) (φ := .f32)
            (mulf (F := Ideal) (s := T8192x32) (φ := .f32)
              (broadcastInDim T8192x32 ![0, 1] hb2 (broadcastInDim T1x1 ![1] hb1 (shapeCast T1 (extractStridedSlice T1x1 ![0, 0] w hs0) hc))) x)
            (mulf (F := Ideal) (s := T8192x32) (φ := .f32)
              (broadcastInDim T8192x32 ![0, 1] hb2 (broadcastInDim T1x1 ![1] hb1 (shapeCast T1 (extractStridedSlice T1x1 ![1, 0] w hs1) hc))) y)⟩,
         ⟨T8192x32, addf (F := Ideal) (s := T8192x32) (φ := .f32)
            (mulf (F := Ideal) (s := T8192x32) (φ := .f32)
              (broadcastInDim T8192x32 ![0, 1] hb2 (broadcastInDim T1x1 ![1] hb1 (shapeCast T1 (extractStridedSlice T1x1 ![0, 0] u hs0) hc)))
              (extractStridedSlice T8192x32 ![0, 0] z hl))
            (mulf (F := Ideal) (s := T8192x32) (φ := .f32)
              (broadcastInDim T8192x32 ![0, 1] hb2 (broadcastInDim T1x1 ![1] hb1 (shapeCast T1 (extractStridedSlice T1x1 ![2, 0] u hs2) hc)))
              (extractStridedSlice T8192x32 ![0, 32] z hh))⟩] hcat : Arr 8192 64)
      = cat (add (scal w 0 x) (scal w 1 y)) (add (scal u 0 (lo z)) (scal u 2 (hi z))) := by
  rw [weight_mul 0 (by decide) w x, weight_mul 1 (by decide) w y, weight_mul 0 (by decide) u, weight_mul 2 (by decide) u,
    slice_lo, slice_hi]
  exact concat_cols _ _ hcat

end Cert.Hops

end
-- ==== Proof.Region0.lean ====
/-
  Region 0 (the first pass): what its two output arrays hold when it ends, as functions of the arrays it was
  entered with.

  The grid has 32 points; point t stages rows [256 t, 256 t + 256) of the adjacency matrix (all 8192 columns) and
  the whole 8192 × 64 right-hand side, and writes back rows [256 t, 256 t + 256) of both outputs: the product block
  (row p, column q of the block is the sum over k of A[256 t + p, k] · X[k, q]; narrowing to bf16 is the identity on
  the extended reals) and the narrowed copy of the adjacency block itself. The 32 row bands tile the 8192 rows, so
  the product array ends as the whole product `mm A X` and the copy as `A`.
-/
import proofs.«125253_g1580547969346_cont_sun_m_652_15_alg».proof.Proof.Gen.KernelIdeal.Frame
import proofs.«125253_g1580547969346_cont_sun_m_652_15_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pass

open Cert.KernelIdeal Cert.KernelIdeal.Gen Cert.Hops
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-! ## A 256-row block times the right-hand side, entry by entry -/

theorem lhs256_0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
theorem lhs256_1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
theorem rhs256_0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
theorem rhs256_1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- The block product at row `p`, column `q`: the sum over the shared axis. -/
theorem blockProduct256 (l : FVec Ideal S256x8192 .bf16) (r : FVec Ideal S8192x64 .bf16) (p : Fin 256) (q : Fin 64) :
    matmul dot_S256x8192_S8192x64_S256x64_1_0_0_1_n_n none l r (constant S256x64 .f32 0x00000000#32) (ix2 p q)
      = ∑ k : Fin 8192, l (ix2 p k) * r (ix2 k q) := by
  simp only [matmul]
  rw [Ideal.matmul_constant_zero_apply, ← Equiv.sum_comp (ValueIdx.contrEquiv1 dot_S256x8192_S8192x64_S256x64_1_0_0_1_n_n 8192 rfl rfl).symm]
  refine Finset.sum_congr rfl fun k _ => ?_
  have hk := ValueIdx.contrEquiv1_symm_val dot_S256x8192_S8192x64_S256x64_1_0_0_1_n_n 8192 rfl rfl k
  have el : dot_S256x8192_S8192x64_S256x64_1_0_0_1_n_n.lhsIdx (ix2 p q) ((ValueIdx.contrEquiv1 dot_S256x8192_S8192x64_S256x64_1_0_0_1_n_n 8192 rfl rfl).symm k) = ix2 p k := funext fun a => Fin.ext (by
    match a with
    | ⟨0, _⟩ => exact lhs256_0 _ _
    | ⟨1, _⟩ => exact (lhs256_1 _ _).trans hk)
  have er : dot_S256x8192_S8192x64_S256x64_1_0_0_1_n_n.rhsIdx (ix2 p q) ((ValueIdx.contrEquiv1 dot_S256x8192_S8192x64_S256x64_1_0_0_1_n_n 8192 rfl rfl).symm k) = ix2 k q := funext fun a => Fin.ext (by
    match a with
    | ⟨0, _⟩ => exact (rhs256_0 _ _).trans hk
    | ⟨1, _⟩ => exact rhs256_1 _ _)
  rw [el, er]

/-- The first pass's product payload, entry by entry (narrowing to bf16 and the same-shape cast are identities). -/
theorem pay0_product (x0 : Vec Ideal S256x8192 .f32) (x1 : Vec Ideal S8192x64 .bf16) (p : Fin 256) (q : Fin 64) :
    k0_pay2 (F := Ideal) x0 x1 (ix2 p q) = ∑ k : Fin 8192, x0 (ix2 p k) * x1 (ix2 k q) := by
  unfold k0_pay2 k0_pay1
  rw [shapeCast_self]
  exact blockProduct256 _ _ p q

/-- The first pass's copy payload is the block itself. -/
theorem pay0_copy (x0 : Vec Ideal S256x8192 .f32) : k0_pay1 (F := Ideal) x0 = x0 := rfl

/-! ## The schedule -/

/-- The printed index maps over the grid: the adjacency window and both outputs sit on row band `t`, the right-hand
    side on the whole array. -/
theorem bands0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The arrays the pass is entered with. -/
abbrev adj0 (c : Dev nD) : Arr 8192 8192 := V c main_arg0
abbrev rhs0 (c : Dev nD) : Arr 8192 64 := V c main_v1

/-- WHAT POINT `t` WRITES BACK to the product array is band `t` of the whole product. -/
theorem flushed0_product (c : Dev nD) (t : Fin cfg0.N) :
    (dat0 V c).flushed 2 t = ((cfg0.win 2).blk t).view.read (Elt Ideal) (mm (adj0 V c) (rhs0 V c)) := by
  show (cfg0.win 2).cut (grid0.coords t) ((dat0 V c).after 2 t) = _
  rw [after0_2]
  unfold out0_2
  rw [View.canon_unit_zero origin2]
  simp only [View.ld_unit_zero (S := S256x8192) origin2, View.ld_unit_zero (S := S8192x64) origin2]
  obtain ⟨e0, e1, e2, e3, e4, e5, e6, e7⟩ := bands0 t
  funext j
  obtain ⟨p, q, rfl⟩ : ∃ (p : Fin 256) (q : Fin 64), j = ix2 p q := ⟨j 0, j 1, eq_ix2 j⟩
  refine (pay0_product (iblk0 V c 0 t) (iblk0 V c 1 t) p q).trans ?_
  show _ = mmAt (adj0 V c) (rhs0 V c) _ _
  unfold mmAt
  refine Finset.sum_congr rfl fun k _ => ?_
  have hl : ((cfg0.win 0).blk t).view.emb (ix2 p k) = ix2 ⟨(((cfg0.win 2).blk t).view.emb (ix2 p q) 0).val, idx2_lt0 _⟩ k := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 8192 + 1 * k.val = k.val; omega
  have hr : ((cfg0.win 1).blk t).view.emb (ix2 k q) = ix2 k ⟨(((cfg0.win 2).blk t).view.emb (ix2 p q) 1).val, idx2_lt1 _⟩ := by
    funext a; apply Fin.ext
    match a with
    | ⟨0, _⟩ => show win0_1.index t (0 : Fin 2) * 8192 + 1 * k.val = k.val; omega
    | ⟨1, _⟩ => show win0_1.index t (1 : Fin 2) * 64 + 1 * q.val = win0_2.index t (1 : Fin 2) * 64 + 1 * q.val; omega
  show adj0 V c (((cfg0.win 0).blk t).view.emb (ix2 p k)) * rhs0 V c (((cfg0.win 1).blk t).view.emb (ix2 k q)) = _
  rw [hl, hr]

/-! ## The row bands tile the rows -/

/-- An index of the product array is in point `t`'s band iff each coordinate is in the band's range. -/
theorem mem_band0_2 (t : Fin cfg0.N) (i : S8192x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v2_0).slice (win0_2.rect t)).set ↔ _
  rw [View.set_slice_whole, Rect.mem_set_unit]
  exact Iff.rfl

/-- Row `r` is in band `r / 256`. -/
theorem covered0_2 (i : S8192x64.Idx) :
    ∃ t : Fin cfg0.N, (cfg0.win 2).flush t = true ∧ i ∈ ((cfg0.win 2).blk t).view.set := by
  have hi0 : (i 0).val < 8192 := idx2_lt0 i
  have hi1 : (i 1).val < 64 := idx2_lt1 i
  have hN : (i 0).val / 256 < grid0.N := by rw [N_0]; omega
  obtain ⟨e0, e1, e2, e3, e4, e5, e6, e7⟩ := bands0 ⟨(i 0).val / 256, hN⟩
  have e4' : win0_2.index ⟨(i 0).val / 256, hN⟩ (0 : Fin 2) = (i 0).val / 256 := e4
  refine ⟨⟨(i 0).val / 256, hN⟩, flush0_2 _, ?_⟩
  rw [mem_band0_2]
  intro a
  match a with
  | ⟨0, _⟩ =>
    show win0_2.index ⟨(i 0).val / 256, hN⟩ (0 : Fin 2) * 256 ≤ (i 0).val ∧ (i 0).val < win0_2.index ⟨(i 0).val / 256, hN⟩ (0 : Fin 2) * 256 + 256
    omega
  | ⟨1, _⟩ =>
    show win0_2.index ⟨(i 0).val / 256, hN⟩ (1 : Fin 2) * 64 ≤ (i 1).val ∧ (i 1).val < win0_2.index ⟨(i 0).val / 256, hN⟩ (1 : Fin 2) * 64 + 64
    omega

/-- THE PRODUCT ARRAY after the pass is the whole product of the arrays the pass was entered with. -/
theorem product0 (c : Dev nD) : (dat0 V c).arrAt 2 cfg0.N = mm (adj0 V c) (rhs0 V c) :=
  (dat0 V c).arrAt_eq_of_cover 2 _ (fun t _ => flushed0_product V c t) covered0_2

/-! ## The narrowed copy of the adjacency matrix -/

/-- WHAT POINT `t` WRITES BACK to the copy is band `t` of the adjacency matrix itself. -/
theorem flushed0_copy (c : Dev nD) (t : Fin cfg0.N) :
    (dat0 V c).flushed 3 t = ((cfg0.win 3).blk t).view.read (Elt Ideal) (adj0 V c) := by
  show (cfg0.win 3).cut (grid0.coords t) ((dat0 V c).after 3 t) = _
  rw [after0_3]
  unfold out0_3
  rw [View.canon_unit_zero origin2]
  simp only [View.ld_unit_zero (S := S256x8192) origin2]
  obtain ⟨e0, e1, e2, e3, e4, e5, e6, e7⟩ := bands0 t
  funext j
  show adj0 V c (((cfg0.win 0).blk t).view.emb j) = adj0 V c (((cfg0.win 3).blk t).view.emb j)
  refine congrArg _ ?_
  funext a; apply Fin.ext
  match a with
  | ⟨0, _⟩ => show win0_0.index t (0 : Fin 2) * 256 + 1 * (j 0).val = win0_3.index t (0 : Fin 2) * 256 + 1 * (j 0).val; omega
  | ⟨1, _⟩ => show win0_0.index t (1 : Fin 2) * 8192 + 1 * (j 1).val = win0_3.index t (1 : Fin 2) * 8192 + 1 * (j 1).val; omega

theorem mem_band0_3 (t : Fin cfg0.N) (i : S8192x8192.Idx) :
    i ∈ ((cfg0.win 3).blk t).view.set ↔ ∀ a : Fin 2, win0_3.index t a * S256x8192.size a ≤ (i a).val ∧ (i a).val < win0_3.index t a * S256x8192.size a + S256x8192.size a := by
  show i ∈ ((View.whole main_v2_1).slice (win0_3.rect t)).set ↔ _
  rw [View.set_slice_whole, Rect.mem_set_unit]
  exact Iff.rfl

theorem covered0_3 (i : S8192x8192.Idx) :
    ∃ t : Fin cfg0.N, (cfg0.win 3).flush t = true ∧ i ∈ ((cfg0.win 3).blk t).view.set := by
  have hi0 : (i 0).val < 8192 := idx2_lt0 i
  have hi1 : (i 1).val < 8192 := idx2_lt1 i
  have hN : (i 0).val / 256 < grid0.N := by rw [N_0]; omega
  obtain ⟨e0, e1, e2, e3, e4, e5, e6, e7⟩ := bands0 ⟨(i 0).val / 256, hN⟩
  have e6' : win0_3.index ⟨(i 0).val / 256, hN⟩ (0 : Fin 2) = (i 0).val / 256 := e6
  refine ⟨⟨(i 0).val / 256, hN⟩, flush0_3 _, ?_⟩
  rw [mem_band0_3]
  intro a
  match a with
  | ⟨0, _⟩ =>
    show win0_3.index ⟨(i 0).val / 256, hN⟩ (0 : Fin 2) * 256 ≤ (i 0).val ∧ (i 0).val < win0_3.index ⟨(i 0).val / 256, hN⟩ (0 : Fin 2) * 256 + 256
    omega
  | ⟨1, _⟩ =>
    show win0_3.index ⟨(i 0).val / 256, hN⟩ (1 : Fin 2) * 8192 ≤ (i 1).val ∧ (i 1).val < win0_3.index ⟨(i 0).val / 256, hN⟩ (1 : Fin 2) * 8192 + 8192
    omega

/-- THE COPY after the pass is the adjacency matrix the pass was entered with. -/
theorem copy0 (c : Dev nD) : (dat0 V c).arrAt 3 cfg0.N = adj0 V c :=
  (dat0 V c).arrAt_eq_of_cover 3 _ (fun t _ => flushed0_copy V c t) covered0_3

end Cert.KernelIdeal.Pass

end
-- ==== Proof.Region1.lean ====
/-
  Region 1 (the second pass): the same kernel shape as the first pass's product half. 32 points, point t writes
  rows [256 t, 256 t + 256) of the product of the adjacency matrix it was entered with and the 8192 × 64
  right-hand side; the bands tile the rows, so the output array ends as the whole product.
-/
import proofs.«125253_g1580547969346_cont_sun_m_652_15_alg».proof.Proof.Region0

set_option maxRecDepth 16384

noncomputable section

namespace Cert.KernelIdeal.Pass

open Cert.KernelIdeal Cert.KernelIdeal.Gen Cert.Hops
open Idealize.ShloMosaic Idealize.ShloMosaic.TcCoe Idealize.ShloMosaic.ValueIdx Idealize.SL.Sem
open Idealize.ShloMosaic.Pipeline (Dat)

/-- The second pass's payload, entry by entry. -/
theorem pay1_product (x0 : Vec Ideal S256x8192 .f32) (x1 : Vec Ideal S8192x64 .bf16) (p : Fin 256) (q : Fin 64) :
    k1_pay1 (F := Ideal) x0 x1 (ix2 p q) = ∑ k : Fin 8192, x0 (ix2 p k) * x1 (ix2 k q) := by
  unfold k1_pay1
  rw [shapeCast_self]
  exact blockProduct256 _ _ p q

/-- The printed index maps over the grid: the adjacency window and the output sit on row band `t`, the right-hand
    side on the whole array. -/
theorem bands1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The arrays the pass is entered with. -/
abbrev adj1 (c : Dev nD) : Arr 8192 8192 := V c main_arg1
abbrev rhs1 (c : Dev nD) : Arr 8192 64 := V c main_v6

/-- WHAT POINT `t` WRITES BACK is band `t` of the whole product. -/
theorem flushed1_product (c : Dev nD) (t : Fin cfg1.N) :
    (dat1 V c).flushed 2 t = ((cfg1.win 2).blk t).view.read (Elt Ideal) (mm (adj1 V c) (rhs1 V c)) := by
  show (cfg1.win 2).cut (grid1.coords t) ((dat1 V c).after 2 t) = _
  rw [after1_2]
  unfold out1_2
  rw [View.canon_unit_zero origin2]
  simp only [View.ld_unit_zero (S := S256x8192) origin2, View.ld_unit_zero (S := S8192x64) origin2]
  obtain ⟨e0, e1, e2, e3, e4, e5⟩ := bands1 t
  funext j
  obtain ⟨p, q, rfl⟩ : ∃ (p : Fin 256) (q : Fin 64), j = ix2 p q := ⟨j 0, j 1, eq_ix2 j⟩
  refine (pay1_product (iblk1 V c 0 t) (iblk1 V c 1 t) p q).trans ?_
  show _ = mmAt (adj1 V c) (rhs1 V c) _ _
  unfold mmAt
  refine Finset.sum_congr rfl fun k _ => ?_
  have hl : ((cfg1.win 0).blk t).view.emb (ix2 p k) = ix2 ⟨(((cfg1.win 2).blk t).view.emb (ix2 p q) 0).val, idx2_lt0 _⟩ k := by
    funext a; apply Fin.ext
    match a with
    | ⟨0, _⟩ => show win1_0.index t (0 : Fin 2) * 256 + 1 * p.val = win1_2.index t (0 : Fin 2) * 256 + 1 * p.val; omega
    | ⟨1, _⟩ => show win1_0.index t (1 : Fin 2) * 8192 + 1 * k.val = k.val; omega
  have hr : ((cfg1.win 1).blk t).view.emb (ix2 k q) = ix2 k ⟨(((cfg1.win 2).blk t).view.emb (ix2 p q) 1).val, idx2_lt1 _⟩ := by
    funext a; apply Fin.ext
    match a with
    | ⟨0, _⟩ => show win1_1.index t (0 : Fin 2) * 8192 + 1 * k.val = k.val; omega
    | ⟨1, _⟩ => show win1_1.index t (1 : Fin 2) * 64 + 1 * q.val = win1_2.index t (1 : Fin 2) * 64 + 1 * q.val; omega
  show adj1 V c (((cfg1.win 0).blk t).view.emb (ix2 p k)) * rhs1 V c (((cfg1.win 1).blk t).view.emb (ix2 k q)) = _
  rw [hl, hr]

theorem mem_band1_2 (t : Fin cfg1.N) (i : S8192x64.Idx) :
    i ∈ ((cfg1.win 2).blk t).view.set ↔ ∀ a : Fin 2, win1_2.index t a * S256x64.size a ≤ (i a).val ∧ (i a).val < win1_2.index t a * S256x64.size a + S256x64.size a := by
  show i ∈ ((View.whole main_v7).slice (win1_2.rect t)).set ↔ _
  rw [View.set_slice_whole, Rect.mem_set_unit]
  exact Iff.rfl

theorem covered1_2 (i : S8192x64.Idx) :
    ∃ t : Fin cfg1.N, (cfg1.win 2).flush t = true ∧ i ∈ ((cfg1.win 2).blk t).view.set := by
  have hi0 : (i 0).val < 8192 := idx2_lt0 i
  have hi1 : (i 1).val < 64 := idx2_lt1 i
  have hN : (i 0).val / 256 < grid1.N := by rw [N_1]; omega
  obtain ⟨e0, e1, e2, e3, e4, e5⟩ := bands1 ⟨(i 0).val / 256, hN⟩
  have e4' : win1_2.index ⟨(i 0).val / 256, hN⟩ (0 : Fin 2) = (i 0).val / 256 := e4
  refine ⟨⟨(i 0).val / 256, hN⟩, flush1_2 _, ?_⟩
  rw [mem_band1_2]
  intro a
  match a with
  | ⟨0, _⟩ =>
    show win1_2.index ⟨(i 0).val / 256, hN⟩ (0 : Fin 2) * 256 ≤ (i 0).val ∧ (i 0).val < win1_2.index ⟨(i 0).val / 256, hN⟩ (0 : Fin 2) * 256 + 256
    omega
  | ⟨1, _⟩ =>
    show win1_2.index ⟨(i 0).val / 256, hN⟩ (1 : Fin 2) * 64 ≤ (i 1).val ∧ (i 1).val < win1_2.index ⟨(i 0).val / 256, hN⟩ (1 : Fin 2) * 64 + 64
    omega

/-- THE OUTPUT ARRAY after the pass is the whole product of the arrays the pass was entered with. -/
theorem product1 (c : Dev nD) : (dat1 V c).arrAt 2 cfg1.N = mm (adj1 V c) (rhs1 V c) :=
  (dat1 V c).arrAt_eq_of_cover 2 _ (fun t _ => flushed1_product V c t) covered1_2

end Cert.KernelIdeal.Pass

end
-- ==== Proof.Region2.lean ====
/-
  Region 2 (the third pass): 16 points, point t stages rows [512 t, 512 t + 512) of the narrowed adjacency copy
  and of the bias array, and the whole 8192 × 64 right-hand side, and writes back rows [512 t, 512 t + 512) of
  bias + product: row p, column q of the block is B[512 t + p, q] plus the sum over k of A[512 t + p, k] · X[k, q].
  The 16 bands tile the 8192 rows, so the result array ends as `add B (mm A X)` of the arrays the pass was entered
  with.
-/
import proofs.«125253_g1580547969346_cont_sun_m_652_15_alg».proof.Proof.Gen.KernelIdeal.Frame
import proofs.«125253_g1580547969346_cont_sun_m_652_15_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pass3

open Cert.KernelIdeal Cert.KernelIdeal.Gen Cert.Hops
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-! ## A 512-row block times the right-hand side, entry by entry -/

theorem lhs512_0 (i : S512x64.Idx) (q : dot_S512x8192_S8192x64_S512x64_1_0_0_1_n_n.contr.Idx) :
    (dot_S512x8192_S8192x64_S512x64_1_0_0_1_n_n.lhsIdx i q 0).val = (i 0).val := by
  unfold DotDims.lhsIdx
  rw [dif_neg (show ¬(0 : Fin S512x8192.rank) ∈ dot_S512x8192_S8192x64_S512x64_1_0_0_1_n_n.lhsBatch by decide), dif_pos (show (0 : Fin S512x8192.rank) ∈ dot_S512x8192_S8192x64_S512x64_1_0_0_1_n_n.lhsNonContracting by decide)]
  rfl
theorem lhs512_1 (i : S512x64.Idx) (q : dot_S512x8192_S8192x64_S512x64_1_0_0_1_n_n.contr.Idx) :
    (dot_S512x8192_S8192x64_S512x64_1_0_0_1_n_n.lhsIdx i q 1).val = (q ⟨0, by decide⟩).val :=
  dot_S512x8192_S8192x64_S512x64_1_0_0_1_n_n.lhsIdx_val_of_single rfl i q
theorem rhs512_0 (i : S512x64.Idx) (q : dot_S512x8192_S8192x64_S512x64_1_0_0_1_n_n.contr.Idx) :
    (dot_S512x8192_S8192x64_S512x64_1_0_0_1_n_n.rhsIdx i q 0).val = (q ⟨0, by decide⟩).val :=
  dot_S512x8192_S8192x64_S512x64_1_0_0_1_n_n.rhsIdx_val_of_single rfl i q
theorem rhs512_1 (i : S512x64.Idx) (q : dot_S512x8192_S8192x64_S512x64_1_0_0_1_n_n.contr.Idx) :
    (dot_S512x8192_S8192x64_S512x64_1_0_0_1_n_n.rhsIdx i q 1).val = (i 1).val := by
  unfold DotDims.rhsIdx
  rw [dif_neg (show ¬(1 : Fin S8192x64.rank) ∈ dot_S512x8192_S8192x64_S512x64_1_0_0_1_n_n.rhsBatch by decide), dif_pos (show (1 : Fin S8192x64.rank) ∈ dot_S512x8192_S8192x64_S512x64_1_0_0_1_n_n.rhsNonContracting by decide)]
  rfl

/-- The block product at row `p`, column `q`: the sum over the shared axis. -/
theorem blockProduct512 (l : FVec Ideal S512x8192 .bf16) (r : FVec Ideal S8192x64 .bf16) (p : Fin 512) (q : Fin 64) :
    matmul dot_S512x8192_S8192x64_S512x64_1_0_0_1_n_n none l r (constant S512x64 .f32 0x00000000#32) (ix2 p q)
      = ∑ k : Fin 8192, l (ix2 p k) * r (ix2 k q) := by
  simp only [matmul]
  rw [Ideal.matmul_constant_zero_apply, ← Equiv.sum_comp (ValueIdx.contrEquiv1 dot_S512x8192_S8192x64_S512x64_1_0_0_1_n_n 8192 rfl rfl).symm]
  refine Finset.sum_congr rfl fun k _ => ?_
  have hk := ValueIdx.contrEquiv1_symm_val dot_S512x8192_S8192x64_S512x64_1_0_0_1_n_n 8192 rfl rfl k
  have el : dot_S512x8192_S8192x64_S512x64_1_0_0_1_n_n.lhsIdx (ix2 p q) ((ValueIdx.contrEquiv1 dot_S512x8192_S8192x64_S512x64_1_0_0_1_n_n 8192 rfl rfl).symm k) = ix2 p k := funext fun a => Fin.ext (by
    match a with
    | ⟨0, _⟩ => exact lhs512_0 _ _
    | ⟨1, _⟩ => exact (lhs512_1 _ _).trans hk)
  have er : dot_S512x8192_S8192x64_S512x64_1_0_0_1_n_n.rhsIdx (ix2 p q) ((ValueIdx.contrEquiv1 dot_S512x8192_S8192x64_S512x64_1_0_0_1_n_n 8192 rfl rfl).symm k) = ix2 k q := funext fun a => Fin.ext (by
    match a with
    | ⟨0, _⟩ => exact (rhs512_0 _ _).trans hk
    | ⟨1, _⟩ => exact rhs512_1 _ _)
  rw [el, er]

/-- The third pass's payload, entry by entry: the bias entry plus the block product's (the same-shape casts are identities). -/
theorem pay2_sum (b : Vec Ideal S512x64 .f32) (l : Vec Ideal S512x8192 .bf16) (r : Vec Ideal S8192x64 .bf16) (p : Fin 512) (q : Fin 64) :
    k2_pay1 (F := Ideal) b l r (ix2 p q) = b (ix2 p q) + ∑ k : Fin 8192, l (ix2 p k) * r (ix2 k q) := by
  unfold k2_pay1
  rw [shapeCast_self, shapeCast_self, shapeCast_self]
  exact congrArg (fun z : EReal => (b (ix2 p q) : EReal) + z) (blockProduct512 l r p q)

/-! ## The schedule -/

/-- The printed index maps over the grid: the adjacency window, the bias window and the output sit on row band `t`,
    the right-hand side on the whole array. -/
theorem bands2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The arrays the pass is entered with. -/
abbrev adj2 (c : Dev nD) : Arr 8192 8192 := V c main_v2_1
abbrev rhs2 (c : Dev nD) : Arr 8192 64 := V c main_v21
abbrev bias2 (c : Dev nD) : Arr 8192 64 := V c main_v44

/-- WHAT POINT `t` WRITES BACK is band `t` of bias + product. -/
theorem flushed2_result (c : Dev nD) (t : Fin cfg2.N) :
    (dat2 V c).flushed 3 t = ((cfg2.win 3).blk t).view.read (Elt Ideal) (add (bias2 V c) (mm (adj2 V c) (rhs2 V c))) := by
  show (cfg2.win 3).cut (grid2.coords t) ((dat2 V c).after 3 t) = _
  rw [after2_3]
  unfold out2_3
  rw [View.canon_unit_zero origin2]
  simp only [View.ld_unit_zero (S := S512x8192) origin2, View.ld_unit_zero (S := S8192x64) origin2, View.ld_unit_zero (S := S512x64) origin2]
  obtain ⟨e0, e1, e2, e3, e4, e5, e6, e7⟩ := bands2 t
  funext j
  obtain ⟨p, q, rfl⟩ : ∃ (p : Fin 512) (q : Fin 64), j = ix2 p q := ⟨j 0, j 1, eq_ix2 j⟩
  refine (pay2_sum (iblk2 V c 2 t) (iblk2 V c 0 t) (iblk2 V c 1 t) p q).trans ?_
  show _ = bias2 V c (((cfg2.win 3).blk t).view.emb (ix2 p q)) + mmAt (adj2 V c) (rhs2 V c) _ _
  unfold mmAt
  have hb : ((cfg2.win 2).blk t).view.emb (ix2 p q) = ((cfg2.win 3).blk t).view.emb (ix2 p q) := by
    funext a; apply Fin.ext
    match a with
    | ⟨0, _⟩ => show win2_2.index t (0 : Fin 2) * 512 + 1 * p.val = win2_3.index t (0 : Fin 2) * 512 + 1 * p.val; omega
    | ⟨1, _⟩ => show win2_2.index t (1 : Fin 2) * 64 + 1 * q.val = win2_3.index t (1 : Fin 2) * 64 + 1 * q.val; omega
  refine congrArg₂ (fun x y : EReal => x + y) ?_ (Finset.sum_congr rfl fun k _ => ?_)
  · show bias2 V c (((cfg2.win 2).blk t).view.emb (ix2 p q)) = _
    rw [hb]
  · have hl : ((cfg2.win 0).blk t).view.emb (ix2 p k) = ix2 ⟨(((cfg2.win 3).blk t).view.emb (ix2 p q) 0).val, idx2_lt0 _⟩ k := by
      funext a; apply Fin.ext
      match a with
      | ⟨0, _⟩ => show win2_0.index t (0 : Fin 2) * 512 + 1 * p.val = win2_3.index t (0 : Fin 2) * 512 + 1 * p.val; omega
      | ⟨1, _⟩ => show win2_0.index t (1 : Fin 2) * 8192 + 1 * k.val = k.val; omega
    have hr : ((cfg2.win 1).blk t).view.emb (ix2 k q) = ix2 k ⟨(((cfg2.win 3).blk t).view.emb (ix2 p q) 1).val, idx2_lt1 _⟩ := by
      funext a; apply Fin.ext
      match a with
      | ⟨0, _⟩ => show win2_1.index t (0 : Fin 2) * 8192 + 1 * k.val = k.val; omega
      | ⟨1, _⟩ => show win2_1.index t (1 : Fin 2) * 64 + 1 * q.val = win2_3.index t (1 : Fin 2) * 64 + 1 * q.val; omega
    show adj2 V c (((cfg2.win 0).blk t).view.emb (ix2 p k)) * rhs2 V c (((cfg2.win 1).blk t).view.emb (ix2 k q)) = _
    rw [hl, hr]

theorem mem_band2_3 (t : Fin cfg2.N) (i : S8192x64.Idx) :
    i ∈ ((cfg2.win 3).blk t).view.set ↔ ∀ a : Fin 2, win2_3.index t a * S512x64.size a ≤ (i a).val ∧ (i a).val < win2_3.index t a * S512x64.size a + S512x64.size a := by
  show i ∈ ((View.whole main_v45).slice (win2_3.rect t)).set ↔ _
  rw [View.set_slice_whole, Rect.mem_set_unit]
  exact Iff.rfl

/-- Row `r` is in band `r / 512`. -/
theorem covered2_3 (i : S8192x64.Idx) :
    ∃ t : Fin cfg2.N, (cfg2.win 3).flush t = true ∧ i ∈ ((cfg2.win 3).blk t).view.set := by
  have hi0 : (i 0).val < 8192 := idx2_lt0 i
  have hi1 : (i 1).val < 64 := idx2_lt1 i
  have hN : (i 0).val / 512 < grid2.N := by rw [N_2]; omega
  obtain ⟨e0, e1, e2, e3, e4, e5, e6, e7⟩ := bands2 ⟨(i 0).val / 512, hN⟩
  have e6' : win2_3.index ⟨(i 0).val / 512, hN⟩ (0 : Fin 2) = (i 0).val / 512 := e6
  refine ⟨⟨(i 0).val / 512, hN⟩, flush2_3 _, ?_⟩
  rw [mem_band2_3]
  intro a
  match a with
  | ⟨0, _⟩ =>
    show win2_3.index ⟨(i 0).val / 512, hN⟩ (0 : Fin 2) * 512 ≤ (i 0).val ∧ (i 0).val < win2_3.index ⟨(i 0).val / 512, hN⟩ (0 : Fin 2) * 512 + 512
    omega
  | ⟨1, _⟩ =>
    show win2_3.index ⟨(i 0).val / 512, hN⟩ (1 : Fin 2) * 64 ≤ (i 1).val ∧ (i 1).val < win2_3.index ⟨(i 0).val / 512, hN⟩ (1 : Fin 2) * 64 + 64
    omega

/-- THE RESULT ARRAY after the pass is bias + product of the arrays the pass was entered with. -/
theorem result2 (c : Dev nD) : (dat2 V c).arrAt 3 cfg2.N = add (bias2 V c) (mm (adj2 V c) (rhs2 V c)) :=
  (dat2 V c).arrAt_eq_of_cover 3 _ (fun t _ => flushed2_result V c t) covered2_3

end Cert.KernelIdeal.Pass3

end
-- ==== Proof.Fold.lean ====
/-
  The kernel program's result, read back through the segment boundaries of its run.

  @main is: two host operations, pass 1, four host operations, pass 2, thirty-seven host operations, pass 3. The
  buffer contents at the boundaries are a fold from the launch memory: a host stretch rewrites the buffers its
  operations write, a pass leaves its output arrays at what its write-backs leave (the three pass modules say what
  that is) and every other buffer alone. Below, the contents of exactly the buffers a later segment reads are
  computed boundary by boundary, in the arrays of Spec.lean:

    before pass 1:  the right-hand side is [xp | xn]
    after pass 1:   Y1 = Ap · [xp | xn], and the narrowed copy of Ap (equal to Ap on the extended reals)
    before pass 2:  the right-hand side is [xn | right half of Y1]
    after pass 2:   Y2 = An · [xn | right half of Y1]
    before pass 3:  the right-hand side is [w2 · left half of Y1 | u1 · left half of Y2], the bias is
                    [w0 xp + w1 · left half of Y1 | u0 · left half of Y2 + u2 · right half of Y2]
    after pass 3:   the result array is bias + Ap · right-hand side, which is `kernelOut`.
-/
import proofs.«125253_g1580547969346_cont_sun_m_652_15_alg».proof.Proof.Gen.KernelIdeal.Frame
import proofs.«125253_g1580547969346_cont_sun_m_652_15_alg».proof.Proof.Spec
import proofs.«125253_g1580547969346_cont_sun_m_652_15_alg».proof.Proof.Glue
import proofs.«125253_g1580547969346_cont_sun_m_652_15_alg».proof.Proof.Region0
import proofs.«125253_g1580547969346_cont_sun_m_652_15_alg».proof.Proof.Region1
import proofs.«125253_g1580547969346_cont_sun_m_652_15_alg».proof.Proof.Region2
import Idealize.ShloMosaic.Lib.StableHlo.Run

set_option maxRecDepth 16384

noncomputable section

namespace Cert.KernelIdeal.Fold

open Cert.KernelIdeal Cert.KernelIdeal.Gen Cert.Hops
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The launch arrays -/

abbrev inAp : Arr 8192 8192 := m ((c : Thread nD τ).loc main_arg0)
abbrev inAn : Arr 8192 8192 := m ((c : Thread nD τ).loc main_arg1)
abbrev inXp : Arr 8192 32 := m ((c : Thread nD τ).loc main_arg2)
abbrev inXn : Arr 8192 32 := m ((c : Thread nD τ).loc main_arg3)
abbrev inW : Arr 3 1 := m ((c : Thread nD τ).loc main_arg4)
abbrev inU : Arr 3 1 := m ((c : Thread nD τ).loc main_arg5)

/-- The first pass's product. -/
abbrev Y1 : Arr 8192 64 := mm (inAp m c) (cat (inXp m c) (inXn m c))
/-- The second pass's product. -/
abbrev Y2 : Arr 8192 64 := mm (inAn m c) (cat (inXn m c) (hi (Y1 m c)))

/-! ## Before pass 1 -/

theorem w1_arg0 : (W1 m ρ c (Proc.devRef .tc main_arg0) : Arr 8192 8192) = inAp m c := by
  dsimp only [W1, hostOps0]; after_results
theorem w1_arg1 : (W1 m ρ c (Proc.devRef .tc main_arg1) : Arr 8192 8192) = inAn m c := by
  dsimp only [W1, hostOps0]; after_results
theorem w1_arg2 : (W1 m ρ c (Proc.devRef .tc main_arg2) : Arr 8192 32) = inXp m c := by
  dsimp only [W1, hostOps0]; after_results
theorem w1_arg3 : (W1 m ρ c (Proc.devRef .tc main_arg3) : Arr 8192 32) = inXn m c := by
  dsimp only [W1, hostOps0]; after_results
theorem w1_arg4 : (W1 m ρ c (Proc.devRef .tc main_arg4) : Arr 3 1) = inW m c := by
  dsimp only [W1, hostOps0]; after_results
theorem w1_arg5 : (W1 m ρ c (Proc.devRef .tc main_arg5) : Arr 3 1) = inU m c := by
  dsimp only [W1, hostOps0]; after_results
theorem w1_v1 : (W1 m ρ c (Proc.devRef .tc main_v1) : Arr 8192 64) = cat (inXp m c) (inXn m c) := by
  dsimp only [W1, hostOps0]; after_results
  exact stage_pair _ _ _ _

/-! ## After pass 1 -/

theorem w2_v2_0 : (W2 m ρ c (Proc.devRef .tc main_v2_0) : Arr 8192 64) = Y1 m c := by
  refine (W2_arr m ρ c 2).trans ?_
  rw [Pass.product0 (V1 m ρ) c]
  show mm (W1 m ρ c (Proc.devRef .tc main_arg0)) (W1 m ρ c (Proc.devRef .tc main_v1)) = _
  rw [w1_arg0, w1_v1]
theorem w2_v2_1 : (W2 m ρ c (Proc.devRef .tc main_v2_1) : Arr 8192 8192) = inAp m c :=
  (W2_arr m ρ c 3).trans ((Pass.copy0 (V1 m ρ) c).trans (w1_arg0 m ρ c))
theorem w2_arg1 : (W2 m ρ c (Proc.devRef .tc main_arg1) : Arr 8192 8192) = inAn m c :=
  (W2_of_ne m ρ c main_arg1 (by decide)).trans (w1_arg1 m ρ c)
theorem w2_arg2 : (W2 m ρ c (Proc.devRef .tc main_arg2) : Arr 8192 32) = inXp m c :=
  (W2_of_ne m ρ c main_arg2 (by decide)).trans (w1_arg2 m ρ c)
theorem w2_arg3 : (W2 m ρ c (Proc.devRef .tc main_arg3) : Arr 8192 32) = inXn m c :=
  (W2_of_ne m ρ c main_arg3 (by decide)).trans (w1_arg3 m ρ c)
theorem w2_arg4 : (W2 m ρ c (Proc.devRef .tc main_arg4) : Arr 3 1) = inW m c :=
  (W2_of_ne m ρ c main_arg4 (by decide)).trans (w1_arg4 m ρ c)
theorem w2_arg5 : (W2 m ρ c (Proc.devRef .tc main_arg5) : Arr 3 1) = inU m c :=
  (W2_of_ne m ρ c main_arg5 (by decide)).trans (w1_arg5 m ρ c)

/-! ## Before pass 2 -/

theorem w3_arg1 : (W3 m ρ c (Proc.devRef .tc main_arg1) : Arr 8192 8192) = inAn m c := by
  dsimp only [W3, hostOps1]; after_results; exact w2_arg1 m ρ c
theorem w3_arg2 : (W3 m ρ c (Proc.devRef .tc main_arg2) : Arr 8192 32) = inXp m c := by
  dsimp only [W3, hostOps1]; after_results; exact w2_arg2 m ρ c
theorem w3_arg4 : (W3 m ρ c (Proc.devRef .tc main_arg4) : Arr 3 1) = inW m c := by
  dsimp only [W3, hostOps1]; after_results; exact w2_arg4 m ρ c
theorem w3_arg5 : (W3 m ρ c (Proc.devRef .tc main_arg5) : Arr 3 1) = inU m c := by
  dsimp only [W3, hostOps1]; after_results; exact w2_arg5 m ρ c
theorem w3_v2_1 : (W3 m ρ c (Proc.devRef .tc main_v2_1) : Arr 8192 8192) = inAp m c := by
  dsimp only [W3, hostOps1]; after_results; exact w2_v2_1 m ρ c
theorem w3_v3 : (W3 m ρ c (Proc.devRef .tc main_v3) : Arr 8192 32) = lo (Y1 m c) := by
  dsimp only [W3, hostOps1]; after_results
  rw [w2_v2_0]
  exact slice_lo _ _
theorem w3_v6 : (W3 m ρ c (Proc.devRef .tc main_v6) : Arr 8192 64) = cat (inXn m c) (hi (Y1 m c)) := by
  dsimp only [W3, hostOps1]; after_results
  rw [w2_v2_0, w2_arg3, slice_hi]
  exact stage_pair _ _ _ _

/-! ## After pass 2 -/

theorem w4_v7 : (W4 m ρ c (Proc.devRef .tc main_v7) : Arr 8192 64) = Y2 m c := by
  refine (W4_arr m ρ c 2).trans ?_
  rw [Pass.product1 (V3 m ρ) c]
  show mm (W3 m ρ c (Proc.devRef .tc main_arg1)) (W3 m ρ c (Proc.devRef .tc main_v6)) = _
  rw [w3_arg1, w3_v6]
theorem w4_arg2 : (W4 m ρ c (Proc.devRef .tc main_arg2) : Arr 8192 32) = inXp m c :=
  (W4_of_ne m ρ c main_arg2 (by decide)).trans (w3_arg2 m ρ c)
theorem w4_arg4 : (W4 m ρ c (Proc.devRef .tc main_arg4) : Arr 3 1) = inW m c :=
  (W4_of_ne m ρ c main_arg4 (by decide)).trans (w3_arg4 m ρ c)
theorem w4_arg5 : (W4 m ρ c (Proc.devRef .tc main_arg5) : Arr 3 1) = inU m c :=
  (W4_of_ne m ρ c main_arg5 (by decide)).trans (w3_arg5 m ρ c)
theorem w4_v2_1 : (W4 m ρ c (Proc.devRef .tc main_v2_1) : Arr 8192 8192) = inAp m c :=
  (W4_of_ne m ρ c main_v2_1 (by decide)).trans (w3_v2_1 m ρ c)
theorem w4_v3 : (W4 m ρ c (Proc.devRef .tc main_v3) : Arr 8192 32) = lo (Y1 m c) :=
  (W4_of_ne m ρ c main_v3 (by decide)).trans (w3_v3 m ρ c)

/-! ## Before pass 3 -/

theorem w5_v2_1 : (W5 m ρ c (Proc.devRef .tc main_v2_1) : Arr 8192 8192) = inAp m c := by
  dsimp only [W5, hostOps2]; after_results; exact w4_v2_1 m ρ c

set_option maxHeartbeats 2000000 in
/-- The third pass's right-hand side. -/
theorem w5_v21 : (W5 m ρ c (Proc.devRef .tc main_v21) : Arr 8192 64)
    = cat (scal (inW m c) 2 (lo (Y1 m c))) (scal (inU m c) 1 (lo (Y2 m c))) := by
  dsimp only [W5, hostOps2]; after_results
  refine (stage_rhs3 (W4 m ρ c (Proc.devRef .tc main_arg4)) (W4 m ρ c (Proc.devRef .tc main_arg5))
    (W4 m ρ c (Proc.devRef .tc main_v3)) (W4 m ρ c (Proc.devRef .tc main_v7)) _ _ _ _ _ _ _ _).trans ?_
  rw [w4_arg4, w4_arg5, w4_v3, w4_v7]

set_option maxHeartbeats 4000000 in
/-- The third pass's bias. -/
theorem w5_v44 : (W5 m ρ c (Proc.devRef .tc main_v44) : Arr 8192 64)
    = cat (add (scal (inW m c) 0 (inXp m c)) (scal (inW m c) 1 (lo (Y1 m c))))
          (add (scal (inU m c) 0 (lo (Y2 m c))) (scal (inU m c) 2 (hi (Y2 m c)))) := by
  dsimp only [W5, hostOps2]; after_results
  refine (stage_bias3 (W4 m ρ c (Proc.devRef .tc main_arg4)) (W4 m ρ c (Proc.devRef .tc main_arg5))
    (W4 m ρ c (Proc.devRef .tc main_arg2)) (W4 m ρ c (Proc.devRef .tc main_v3)) (W4 m ρ c (Proc.devRef .tc main_v7))
    _ _ _ _ _ _ _ _ _).trans ?_
  rw [w4_arg4, w4_arg5, w4_arg2, w4_v3, w4_v7]

/-! ## After pass 3 -/

/-- THE RESULT ARRAY at the last boundary is `kernelOut` of the launch arrays. -/
theorem w6_v45 : (W6 m ρ c (Proc.devRef .tc main_v45) : Arr 8192 64)
    = kernelOut (inAp m c) (inAn m c) (inXp m c) (inXn m c) (inW m c) (inU m c) := by
  refine (W6_arr m ρ c 3).trans ?_
  rw [Pass3.result2 (V5 m ρ) c]
  show add (W5 m ρ c (Proc.devRef .tc main_v44)) (mm (W5 m ρ c (Proc.devRef .tc main_v2_1)) (W5 m ρ c (Proc.devRef .tc main_v21))) = _
  rw [w5_v44, w5_v2_1, w5_v21]
  rfl

end Cert.KernelIdeal.Fold

end
-- ==== Proof.RefValue.lean ====
/-
  The reference's result, read: its generated run ends with the result array at the composed term of the six
  argument arrays; read one operation at a time (a `dot_general` over the shared axis is the matrix product
  `mm`, a weight's slice-reshape-broadcast-multiply is `scal`, the final concatenation is `cat`) that term is
  `refOut` of Spec.lean.
-/
import proofs.«125253_g1580547969346_cont_sun_m_652_15_alg».proof.Proof.Gen.ReferenceIdeal.Run
import proofs.«125253_g1580547969346_cont_sun_m_652_15_alg».proof.Proof.Gen.ReferenceIdeal.Read
import proofs.«125253_g1580547969346_cont_sun_m_652_15_alg».proof.Proof.Spec
import proofs.«125253_g1580547969346_cont_sun_m_652_15_alg».proof.Proof.Glue

noncomputable section

namespace Cert.ReferenceIdeal.RefValue

open Cert.ReferenceIdeal Cert.ReferenceIdeal.Gen Cert.Hops
open Idealize.ShloMosaic Idealize.ShloMosaic.TcCoe Idealize.ShloMosaic.ValueIdx Idealize.SL.Sem

/-- The host's `dot_general` contracting the columns of `A` with the rows of `X` is the matrix product. -/
theorem dot_eq_mm (A : Arr 8192 8192) (X : Arr 8192 32) :
    Host.dotGeneral (F := Ideal) (φ₁ := .f32) (φ₂ := .f32) dot_S8192x8192_S8192x32_S8192x32_1_0_0_1_n_n none A X = mm A X := by
  funext i
  refine (Read.val_main_v20_apply A X i).trans ?_
  show _ = mmAt A X _ _
  unfold mmAt
  refine Finset.sum_congr rfl fun k _ => ?_
  have hl : Read.lidx_main_v20 i k = ix2 ⟨(i 0).val, idx2_lt0 i⟩ k :=
    funext fun a => match a with | ⟨0, _⟩ => rfl | ⟨1, _⟩ => rfl
  have hr : Read.ridx_main_v20 i k = ix2 k ⟨(i 1).val, idx2_lt1 i⟩ :=
    funext fun a => match a with | ⟨0, _⟩ => rfl | ⟨1, _⟩ => rfl
  rw [hl, hr]

theorem weight0 (w : Arr 3 1) (X : Arr 8192 32) :
    mulf (F := Ideal) (s := S8192x32) (φ := .f32) (broadcastInDim S8192x32 ![0, 1] bcast_S1x1_S8192x32_0_1 (broadcastInDim S1x1 ![1] bcast_S1_S1x1_1 (shapeCast S1 (extractStridedSlice S1x1 ![0, 0] w slices_S3x1_S1x1_0_0) shapeCasts_S1x1_S1))) X
      = scal w 0 X := weight_mul 0 (by decide) w X _ _ _ _
theorem weight1 (w : Arr 3 1) (X : Arr 8192 32) :
    mulf (F := Ideal) (s := S8192x32) (φ := .f32) (broadcastInDim S8192x32 ![0, 1] bcast_S1x1_S8192x32_0_1 (broadcastInDim S1x1 ![1] bcast_S1_S1x1_1 (shapeCast S1 (extractStridedSlice S1x1 ![1, 0] w slices_S3x1_S1x1_1_0) shapeCasts_S1x1_S1))) X
      = scal w 1 X := weight_mul 1 (by decide) w X _ _ _ _
theorem weight2 (w : Arr 3 1) (X : Arr 8192 32) :
    mulf (F := Ideal) (s := S8192x32) (φ := .f32) (broadcastInDim S8192x32 ![0, 1] bcast_S1x1_S8192x32_0_1 (broadcastInDim S1x1 ![1] bcast_S1_S1x1_1 (shapeCast S1 (extractStridedSlice S1x1 ![2, 0] w slices_S3x1_S1x1_2_0) shapeCasts_S1x1_S1))) X
      = scal w 2 X := weight_mul 2 (by decide) w X _ _ _ _

/-- The reference's result array is `refOut` of its arguments. -/
theorem result_eq (x0 x1 : Arr 8192 8192) (x2 x3 : Arr 8192 32) (x4 x5 : Arr 3 1) :
    Read.val_main_v43 (F := Ideal) x0 x1 x2 x3 x4 x5 = refOut x0 x1 x2 x3 x4 x5 := by
  rw [← Read.val_main_v43_eq]
  rw [weight0 x4, weight1 x4, weight2 x4, weight0 x5, weight1 x5, weight2 x5]
  rw [dot_eq_mm x0 x2, dot_eq_mm x1 x3, dot_eq_mm x0 x3, dot_eq_mm x0 (mm x0 x2), dot_eq_mm x0 (mm x1 x3), dot_eq_mm x1 (mm x0 x3)]
  rw [show broadcastInDim S8192x32 ![] bcast_S_S8192x32 (constant (F := Ideal) S_ .f32 0x00000000#32) = (zero : Arr 8192 32) from broadcast_zero _]
  refine (concat_cols _ _ _).trans ?_
  rfl

end Cert.ReferenceIdeal.RefValue

end
-- ==== Proof.lean ====
/-
  The certificate of the three-pass regrouping of a signed graph propagation.

  The reference computes, for adjacency matrices Ap, An (8192 × 8192), features xp, xn (8192 × 32) and weights
  w, u (3 × 1),
      [ (w0 xp + w1 (Ap xp)) + w2 (Ap (Ap xp)) | ((0 + u0 (An xn)) + u1 (Ap (An xn))) + u2 (An (Ap xn)) ],
  six products one at a time. The kernel reads each adjacency matrix once per pass against a double-width
  right-hand side: pass 1 gives [Ap xp | Ap xn] (and a narrowed copy of Ap), pass 2 gives [An xn | An (Ap xn)],
  pass 3 adds the already-weighted low-order terms to Ap · [w2 (Ap xp) | u1 (An xn)].

  On the extended reals the two agree because a product against two operands side by side is the two products
  side by side, because narrowing to bf16 is the identity, because sums may be regrouped, and because a scalar moves
  out of a product, Ap · (w • Y) = w • (Ap · Y). The last is distributivity, which fails at the infinities: it is
  where the precondition (every input entry finite, hence real) is used.

  The frames of both kernel programs are the generated frame certificates; the reference's frame is its generated
  run with the result dropped; the idealization rewrote no operation, so `preserves` is trivial. For `algebraic`:
  the kernel's run with its result array named at the last segment boundary (RunResult), that boundary's contents
  read back pass by pass (Region0–2, Fold), the reference's generated term read operation by operation (RefValue),
  the precondition decoded (Finite), and the mathematics (Spec).
-/
import proofs.«125253_g1580547969346_cont_sun_m_652_15_alg».proof.Defs
import proofs.«125253_g1580547969346_cont_sun_m_652_15_alg».proof.Proof.Gen.Kernel
import proofs.«125253_g1580547969346_cont_sun_m_652_15_alg».proof.Proof.Gen.Kernel.Frame
import proofs.«125253_g1580547969346_cont_sun_m_652_15_alg».proof.Proof.Gen.KernelIdeal
import proofs.«125253_g1580547969346_cont_sun_m_652_15_alg».proof.Proof.Gen.KernelIdeal.Frame
import proofs.«125253_g1580547969346_cont_sun_m_652_15_alg».proof.Proof.Gen.ReferenceIdeal
import proofs.«125253_g1580547969346_cont_sun_m_652_15_alg».proof.Proof.Gen.ReferenceIdeal.Run
import proofs.«125253_g1580547969346_cont_sun_m_652_15_alg».proof.Proof.Gen.ReferenceIdeal.Read
import proofs.«125253_g1580547969346_cont_sun_m_652_15_alg».proof.Proof.Gen.Pre_finite_inputs
import proofs.«125253_g1580547969346_cont_sun_m_652_15_alg».proof.Proof.Spec
import proofs.«125253_g1580547969346_cont_sun_m_652_15_alg».proof.Proof.Finite
import proofs.«125253_g1580547969346_cont_sun_m_652_15_alg».proof.Proof.RunResult
import proofs.«125253_g1580547969346_cont_sun_m_652_15_alg».proof.Proof.Fold
import proofs.«125253_g1580547969346_cont_sun_m_652_15_alg».proof.Proof.RefValue
import Idealize.ShloMosaic.Adequacy
import Idealize.ShloMosaic.Init

noncomputable section

namespace Cert.Proof

open Idealize.ShloMosaic Idealize.ShloMosaic.TcCoe Idealize.SL.Sem Cert.Hops

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at `kernelOut` of the (agreeing) argument arrays: the kernel by its
    run read back through the passes, the reference because its own result `refOut` equals it on real inputs. -/
theorem algebraic : Cert.algebraic_KernelIdeal_ReferenceIdeal := by
  intro m ρ m' ρ' hpre hagree
  refine ⟨fun c => kernelOut (Cert.KernelIdeal.Fold.inAp m c) (Cert.KernelIdeal.Fold.inAn m c)
      (Cert.KernelIdeal.Fold.inXp m c) (Cert.KernelIdeal.Fold.inXn m c) (Cert.KernelIdeal.Fold.inW m c)
      (Cert.KernelIdeal.Fold.inU m c), ?_, ?_⟩
  · exact (θ_run Cert.KernelIdeal.defs _ _).mono
      (fun r h c => ⟨(h c).1.trans (Cert.KernelIdeal.Fold.w6_v45 m ρ c), (h c).2⟩)
      (Cert.KernelIdeal.Result.run_result (F := Ideal) m ρ)
  · refine (θ_run Cert.ReferenceIdeal.defs _ _).mono (fun r h c => ⟨?_, (h c).2⟩)
      (Cert.ReferenceIdeal.Value.run (F := Ideal) m' ρ')
    obtain ⟨hAp, hAn, hxp, hxn, hw, hu⟩ := reals_of_pre _ _ _ _ _ _ (hpre c)
    obtain ⟨e0, e1, e2, e3, e4, e5⟩ := hagree c
    rw [(h c).1, Cert.ReferenceIdeal.Read.val_main_v43_eq, Cert.ReferenceIdeal.RefValue.result_eq, e0, e1, e2, e3, e4, e5]
    exact (kernelOut_eq_refOut hAp hAn hxp hxn hw hu).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
